-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x16 .f32) (main_arg3 : FVec F S16x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 12
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S4096x16, .f32⟩
  | .hbm, ⟨8, _⟩ => ⟨S4096x16, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x16, .f32⟩
  | .local _ .vmem, ⟨5, _⟩ => ⟨S1024x16, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_15 : BitVec 32 := 0#32
  let v25 : BitVec 1 := Scalar.cmpi .ne v24 c0_i32_15
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  bcast_S_S4096x16 : S_.BroadcastsInDim S4096x16 (![] : Fin 0 → Fin S4096x16.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .f32 = 32 ∨ (Rect.block (s := S4096x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x16 : Shape := ⟨2, ![4096, 16]⟩
abbrev S16x4096 : Shape := ⟨2, ![16, 4096]⟩
abbrev S4096 : Shape := ⟨1, ![4096]⟩
abbrev S_ : Shape := ⟨0, ![]⟩
abbrev S4x2048x16 : Shape := ⟨3, ![4, 2048, 16]⟩
abbrev S1x1x4096 : Shape := ⟨3, ![1, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4096x16, .f32⟩
  | .hbm, ⟨8, _⟩ => ⟨S4096x16, .f32⟩
  | .hbm, ⟨9, _⟩ => ⟨S4x2048x16, .f32⟩
  | .hbm, ⟨10, _⟩ => ⟨S4x2048x4096, .f32⟩
  | .hbm, ⟨11, _⟩ => ⟨S4x2048x4096, .f32⟩
  | .hbm, ⟨12, _⟩ => ⟨S1x1x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S4096x16 : S_.BroadcastsInDim S4096x16 (![] : Fin 0 → Fin S4096x16.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_0_01_1_n_n_wf : DotDims.WF S4x2048x4096 S4096x4096 S4x2048x4096 [2] [0] [0, 1] [1] [] []
  dot_S4x2048x4096_S4096x16_S4x2048x16_2_0_01_1_n_n_wf : DotDims.WF S4x2048x4096 S4096x16 S4x2048x16 [2] [0] [0, 1] [1] [] []
  dot_S4x2048x16_S16x4096_S4x2048x4096_2_0_01_1_n_n_wf : DotDims.WF S4x2048x16 S16x4096 S4x2048x4096 [2] [0] [0, 1] [1] [] []

variable [Facts₀]

def dot_S4x2048x4096_S4096x4096_S4x2048x4096_2_0_01_1_n_n : DotDims S4x2048x4096 S4096x4096 S4x2048x4096 where
  lhsContracting := [2]
  rhsContracting := [0]
  lhsNonContracting := [0, 1]
  rhsNonContracting := [1]
  lhsBatch := []
  rhsBatch := []
  wf := dot_S4x2048x4096_S4096x4096_S4x2048x4096_2_0_01_1_n_n_wf
def dot_S4x2048x4096_S4096x16_S4x2048x16_2_0_01_1_n_n : DotDims S4x2048x4096 S4096x16 S4x2048x16 where
  lhsContracting := [2]
  rhsContracting := [0]
  lhsNonContracting := [0, 1]
  rhsNonContracting := [1]
  lhsBatch := []
  rhsBatch := []
  wf := dot_S4x2048x4096_S4096x16_S4x2048x16_2_0_01_1_n_n_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.LoraSpec.lean ====
/-
  The fused low-rank-adapted linear map, as mathematics.

  For an activation `x[b,s,d]`, a dense weight `W[d,f]`, low-rank factors `U[d,r]` (scaled by a constant `two`) and `V[r,f]`,
  and a bias `bias[f]`, the map is

      out[b,s,f] = (∑_d x[b,s,d]·W[d,f]  +  ∑_r (∑_d x[b,s,d]·(U[d,r]·two))·V[r,f])  +  bias[f].

  A blocked evaluation walks the contracted axis `d` in consecutive stretches and keeps a running sum. This file states the
  running sum over natural-number coordinates (an array read outside its extent is `0`, so no bound travels with an
  index), proves that one more stretch extends it (`dotTo_block`: a sum over `range (n + w)` splits at `n`), and that the
  running sum over the whole axis is the full contraction (`dotTo_full`). Nothing here needs finiteness: only that
  addition is commutative and associative with `0` neutral.
-/
import Idealize.ShloMosaic.Lib.ValueIdx

noncomputable section

open scoped BigOperators
open Idealize.ShloMosaic Idealize.ShloMosaic.ValueIdx

namespace Cert.Lora

/-! ## A matrix read at natural-number coordinates -/

section At2
variable {M : Type} [Zero M] {a b : ℕ}

/-- A matrix entry at natural coordinates; `0` outside the matrix. -/
def at2 (A : (⟨2, ![a, b]⟩ : Shape).Idx → M) (P Q : ℕ) : M :=
  if h : P < a ∧ Q < b then A (ix2 ⟨P, h.1⟩ ⟨Q, h.2⟩) else 0

theorem at2_of_lt (A : (⟨2, ![a, b]⟩ : Shape).Idx → M) {P Q : ℕ} (hP : P < a) (hQ : Q < b) :
    at2 A P Q = A (ix2 ⟨P, hP⟩ ⟨Q, hQ⟩) := dif_pos ⟨hP, hQ⟩

theorem at2_val (A : (⟨2, ![a, b]⟩ : Shape).Idx → M) (p : Fin a) (q : Fin b) : at2 A p.val q.val = A (ix2 p q) :=
  dif_pos ⟨p.isLt, q.isLt⟩

end At2

/-! ## The running sum of a matrix product along the contracted axis -/

section DotTo
variable {M : Type} [AddCommMonoid M] [Mul M] {a b c : ℕ}

/-- Entry `(P, Q)` of `A·B` with the contraction stopped after its first `n` terms. -/
def dotTo (A : (⟨2, ![a, b]⟩ : Shape).Idx → M) (B : (⟨2, ![b, c]⟩ : Shape).Idx → M) (n P Q : ℕ) : M :=
  ∑ i ∈ Finset.range n, at2 A P i * at2 B i Q

theorem dotTo_zero (A : (⟨2, ![a, b]⟩ : Shape).Idx → M) (B : (⟨2, ![b, c]⟩ : Shape).Idx → M) (P Q : ℕ) :
    dotTo A B 0 P Q = 0 := Finset.sum_range_zero _

/-- One more stretch of `w` terms extends the running sum by that stretch's partial product. -/
theorem dotTo_block (A : (⟨2, ![a, b]⟩ : Shape).Idx → M) (B : (⟨2, ![b, c]⟩ : Shape).Idx → M) (n w P Q : ℕ) :
    dotTo A B (n + w) P Q = dotTo A B n P Q + ∑ e : Fin w, at2 A P (n + e.val) * at2 B (n + e.val) Q := by
  unfold dotTo
  rw [Finset.sum_range_add, Fin.sum_univ_eq_sum_range (fun x => at2 A P (n + x) * at2 B (n + x) Q) w]

/-- Over the whole contracted axis the running sum is the matrix product's entry. -/
theorem dotTo_full (A : (⟨2, ![a, b]⟩ : Shape).Idx → M) (B : (⟨2, ![b, c]⟩ : Shape).Idx → M) (P : Fin a) (Q : Fin c) :
    dotTo A B b P.val Q.val = ∑ d : Fin b, A (ix2 P d) * B (ix2 d Q) := by
  unfold dotTo
  rw [← Fin.sum_univ_eq_sum_range (fun i => at2 A P.val i * at2 B i Q.val) b]
  exact Finset.sum_congr rfl fun d _ => by rw [at2_val, at2_val]

end DotTo

/-! ## The map itself -/

/-- The map on the flattened activation `X[P,d]` (`P` the row `b·2048 + s`), with the scaled factor `Us[d,r]` and the bias as a
    one-row matrix: `(∑_d X[P,d]·W[d,Q] + ∑_r (∑_d X[P,d]·Us[d,r])·V[r,Q]) + B[0,Q]`. -/
def out2 (X : (⟨2, ![8192, 4096]⟩ : Shape).Idx → EReal) (W : (⟨2, ![4096, 4096]⟩ : Shape).Idx → EReal)
    (Us : (⟨2, ![4096, 16]⟩ : Shape).Idx → EReal) (V : (⟨2, ![16, 4096]⟩ : Shape).Idx → EReal)
    (B : (⟨2, ![1, 4096]⟩ : Shape).Idx → EReal) : (⟨2, ![8192, 4096]⟩ : Shape).Idx → EReal :=
  fun j => (∑ d : Fin 4096, X (ix2 (j 0) d) * W (ix2 d (j 1))
      + ∑ r : Fin 16, (∑ d : Fin 4096, X (ix2 (j 0) d) * Us (ix2 d r)) * V (ix2 r (j 1)))
    + B (ix2 0 (j 1))

/-- The map on the arguments as given: `out[b,s,f]` of the header. -/
def lora (two : EReal) (x : (⟨3, ![4, 2048, 4096]⟩ : Shape).Idx → EReal) (W : (⟨2, ![4096, 4096]⟩ : Shape).Idx → EReal)
    (U : (⟨2, ![4096, 16]⟩ : Shape).Idx → EReal) (V : (⟨2, ![16, 4096]⟩ : Shape).Idx → EReal)
    (bias : (⟨1, ![4096]⟩ : Shape).Idx → EReal) : (⟨3, ![4, 2048, 4096]⟩ : Shape).Idx → EReal :=
  fun j => (∑ d : Fin 4096, x (ix3 (j 0) (j 1) d) * W (ix2 d (j 2))
      + ∑ r : Fin 16, (∑ d : Fin 4096, x (ix3 (j 0) (j 1) d) * (U (ix2 d r) * two)) * V (ix2 r (j 2)))
    + bias (ix1 (j 2))

end Cert.Lora

end
-- ==== Proof.Blocks.lean ====
/-
  Where each tile comes from.

  The grid has 8 × 4 × 4 = 128 steps; step `t` is at row-tile `t / 16`, column-tile `t / 4 % 4` and stretch `t % 4` of the
  contracted axis. At step `t` the kernel sees: the 1024×1024 tile of the flattened activation at (row-tile, stretch); the
  1024×1024 tile of `W` at (stretch, column-tile); the 1024×16 tile of the scaled factor at (stretch, ·); the 16×1024 tile of
  `V` at (·, column-tile); and the 1×1024 tile of the bias row at column-tile. Entry `(a, b)` of a tile at tile-index
  `(I, J)` with tile extents `(h, w)` is entry `(I·h + a, J·w + b)` of its array.
-/
import proofs.«160765_j85401129714088_1_alg».proof.Proof.Gen.KernelIdeal.Frame
import proofs.«160765_j85401129714088_1_alg».proof.Proof.LoraSpec
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Lora

variable (m : (ℓ : Loc nD τ sig) → Buf (Elt Ideal) ℓ)

/-! ## The arrays the region finds, and the tiles of a step, at their literal types -/

/-- The flattened activation `[8192, 4096]`. -/
abbrev Xa (c : Dev nD) : Vec Ideal S8192x4096 .f32 := V m c main_v0
/-- The dense weight `[4096, 4096]`. -/
abbrev Wa (c : Dev nD) : Vec Ideal S4096x4096 .f32 := V m c main_arg1
/-- The scaled low-rank factor `[4096, 16]`. -/
abbrev Ua (c : Dev nD) : Vec Ideal S4096x16 .f32 := V m c main_v2
/-- The other low-rank factor `[16, 4096]`. -/
abbrev Va (c : Dev nD) : Vec Ideal S16x4096 .f32 := V m c main_arg3
/-- The bias as a one-row matrix `[1, 4096]`. -/
abbrev Ba (c : Dev nD) : Vec Ideal S1x4096 .f32 := V m c main_v3

abbrev xblk (c : Dev nD) (t : Fin cfg0.N) : Vec Ideal S1024x1024 .f32 := iblk m c 0 t
abbrev wblk (c : Dev nD) (t : Fin cfg0.N) : Vec Ideal S1024x1024 .f32 := iblk m c 1 t
abbrev ublk (c : Dev nD) (t : Fin cfg0.N) : Vec Ideal S1024x16 .f32 := iblk m c 2 t
abbrev vblk (c : Dev nD) (t : Fin cfg0.N) : Vec Ideal S16x1024 .f32 := iblk m c 3 t
abbrev bblk (c : Dev nD) (t : Fin cfg0.N) : Vec Ideal S1x1024 .f32 := iblk m c 4 t

/-! ## The tile indices, decided once over the 128 steps -/

theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-! ## A tile's entry is its array's entry -/

/-- The activation tile: rows of the step's row-tile, columns of the step's stretch. -/
theorem xblk_apply (c : Dev nD) (t : Fin cfg0.N) (p : Fin 1024) (e : Fin 1024) :
    xblk m c t (ix2 p e) = at2 (Xa m c) (t.val / 16 * 1024 + p.val) (t.val % 4 * 1024 + e.val) := by
  have hN : t.val < 128 := lt_of_lt_of_eq t.isLt N_0
  have hi := idx_facts t
  rw [at2_of_lt _ (by omega) (by omega)]
  unfold xblk iblk
  rw [View.read_apply]
  show V m c main_v0 _ = V m c main_v0 _
  refine congrArg (V m c main_v0) (funext fun ax => Fin.ext ?_)
  match ax with
  | ⟨0, _⟩ => show win0_0.index t 0 * 1024 + 1 * p.val = t.val / 16 * 1024 + p.val; rw [hi.1]; omega
  | ⟨1, _⟩ => show win0_0.index t 1 * 1024 + 1 * e.val = t.val % 4 * 1024 + e.val; rw [hi.2.1]; omega

/-- The weight tile: rows of the step's stretch, columns of the step's column-tile. -/
theorem wblk_apply (c : Dev nD) (t : Fin cfg0.N) (e : Fin 1024) (q : Fin 1024) :
    wblk m c t (ix2 e q) = at2 (Wa m c) (t.val % 4 * 1024 + e.val) (t.val / 4 % 4 * 1024 + q.val) := by
  have hN : t.val < 128 := lt_of_lt_of_eq t.isLt N_0
  have hi := idx_facts t
  rw [at2_of_lt _ (by omega) (by omega)]
  unfold wblk iblk
  rw [View.read_apply]
  show V m c main_arg1 _ = V m c main_arg1 _
  refine congrArg (V m c main_arg1) (funext fun ax => Fin.ext ?_)
  match ax with
  | ⟨0, _⟩ => show win0_1.index t 0 * 1024 + 1 * e.val = t.val % 4 * 1024 + e.val; rw [hi.2.2.1]; omega
  | ⟨1, _⟩ => show win0_1.index t 1 * 1024 + 1 * q.val = t.val / 4 % 4 * 1024 + q.val; rw [hi.2.2.2.1]; omega

/-- The scaled factor's tile: rows of the step's stretch, all 16 ranks. -/
theorem ublk_apply (c : Dev nD) (t : Fin cfg0.N) (e : Fin 1024) (r : Fin 16) :
    ublk m c t (ix2 e r) = at2 (Ua m c) (t.val % 4 * 1024 + e.val) (r.val) := by
  have hN : t.val < 128 := lt_of_lt_of_eq t.isLt N_0
  have hi := idx_facts t
  rw [at2_of_lt _ (by omega) (by omega)]
  unfold ublk iblk
  rw [View.read_apply]
  show V m c main_v2 _ = V m c main_v2 _
  refine congrArg (V m c main_v2) (funext fun ax => Fin.ext ?_)
  match ax with
  | ⟨0, _⟩ => show win0_2.index t 0 * 1024 + 1 * e.val = t.val % 4 * 1024 + e.val; rw [hi.2.2.2.2.1]; omega
  | ⟨1, _⟩ => show win0_2.index t 1 * 16 + 1 * r.val = r.val; rw [hi.2.2.2.2.2.1]; omega

/-- The other factor's tile: all 16 ranks, columns of the step's column-tile. -/
theorem vblk_apply (c : Dev nD) (t : Fin cfg0.N) (r : Fin 16) (q : Fin 1024) :
    vblk m c t (ix2 r q) = at2 (Va m c) (r.val) (t.val / 4 % 4 * 1024 + q.val) := by
  have hN : t.val < 128 := lt_of_lt_of_eq t.isLt N_0
  have hi := idx_facts t
  rw [at2_of_lt _ (by omega) (by omega)]
  unfold vblk iblk
  rw [View.read_apply]
  show V m c main_arg3 _ = V m c main_arg3 _
  refine congrArg (V m c main_arg3) (funext fun ax => Fin.ext ?_)
  match ax with
  | ⟨0, _⟩ => show win0_3.index t 0 * 16 + 1 * r.val = r.val; rw [hi.2.2.2.2.2.2.1]; omega
  | ⟨1, _⟩ => show win0_3.index t 1 * 1024 + 1 * q.val = t.val / 4 % 4 * 1024 + q.val; rw [hi.2.2.2.2.2.2.2.1]; omega

/-- The bias tile: the one row, columns of the step's column-tile. -/
theorem bblk_apply (c : Dev nD) (t : Fin cfg0.N) (z : Fin 1) (q : Fin 1024) :
    bblk m c t (ix2 z q) = at2 (Ba m c) (z.val) (t.val / 4 % 4 * 1024 + q.val) := by
  have hN : t.val < 128 := lt_of_lt_of_eq t.isLt N_0
  have hi := idx_facts t
  rw [at2_of_lt _ (by omega) (by omega)]
  unfold bblk iblk
  rw [View.read_apply]
  show V m c main_v3 _ = V m c main_v3 _
  refine congrArg (V m c main_v3) (funext fun ax => Fin.ext ?_)
  match ax with
  | ⟨0, _⟩ => show win0_4.index t 0 * 1 + 1 * z.val = z.val; rw [hi.2.2.2.2.2.2.2.2.1]; omega
  | ⟨1, _⟩ => show win0_4.index t 1 * 1024 + 1 * q.val = t.val / 4 % 4 * 1024 + q.val; rw [hi.2.2.2.2.2.2.2.2.2.1]; omega

end Cert.KernelIdeal.Blocks

end
-- ==== Proof.Pieces.lean ====
/-
  What each control case of the kernel body leaves behind, as values.

  The body keeps two accumulators across the grid's innermost axis: `acc` (a 1024×1024 tile of `x·W`) and `low` (a 1024×16 tile of
  `x·(U·2)`). At the first step of that axis it resets both to zero and adds the step's partial products; at a middle step it
  adds the step's partial products to what the step before left; at the last step it does the same and then writes the
  output tile `(acc + low·V) + bias`. Each lemma below says that what a case leaves in an accumulator (or in the output tile)
  is the corresponding arithmetic term of the step's input tiles and of what the step before left — for any float instance.
-/
import proofs.«160765_j85401129714088_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-tile access, as the constant function. -/
theorem hz : (![0, 0] : Fin 2 → Nat) = fun _ => 0 := funext fun a => by fin_cases a <;> rfl

/-- First step: `acc` ends at `0 + x·w` (the reset's zero tile, then the step's product). -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .f32) (x1 : Vec F S1024x1024 .f32) (x2 : Vec F S1024x16 .f32) (x3 : Vec F S16x1024 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- First step: `low` ends at `0 + x·us`. -/
theorem low_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .f32) (x1 : Vec F S1024x1024 .f32) (x2 : Vec F S1024x16 .f32) (x3 : Vec F S16x1024 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg5.read_unread, View.ld_unit_zero (S := S1024x1024) hz, View.ld_unit_zero (S := S1024x16) hz]

/-- Middle step: `acc` ends at what the step before left plus `x·w`. -/
theorem acc_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .f32) (x1 : Vec F S1024x1024 .f32) (x2 : Vec F S1024x16 .f32) (x3 : Vec F S16x1024 .f32) (x4 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg9.read_unread, View.ld_unit_zero (S := S1024x1024) hz]

/-- Middle step: `low` ends at what the step before left plus `x·us`. -/
theorem low_mid (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .f32) (x1 : Vec F S1024x1024 .f32) (x2 : Vec F S1024x16 .f32) (x3 : Vec F S16x1024 .f32) (x4 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg5.read_unread, harg10.read_unread, View.ld_unit_zero (S := S1024x1024) hz, View.ld_unit_zero (S := S1024x16) hz]

/-- Last step: `acc` ends at what the step before left plus `x·w`. -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .f32) (x1 : Vec F S1024x1024 .f32) (x2 : Vec F S1024x16 .f32) (x3 : Vec F S16x1024 .f32) (x4 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg9.read_unread, View.ld_unit_zero (S := S1024x1024) hz]

/-- Last step: `low` ends at what the step before left plus `x·us`. -/
theorem low_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .f32) (x1 : Vec F S1024x1024 .f32) (x2 : Vec F S1024x16 .f32) (x3 : Vec F S16x1024 .f32) (x4 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg5.read_unread, harg10.read_unread, View.ld_unit_zero (S := S1024x1024) hz, View.ld_unit_zero (S := S1024x16) hz]

/-- Last step: the output tile is `(acc + low·v) + bias` of the two accumulators as this step leaves them. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1024x16 .f32) (harg5 : arg5.IsWhole) (arg6 : Memref sig .tc .vmem S16x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .f32) (x1 : Vec F S1024x1024 .f32) (x2 : Vec F S1024x16 .f32) (x3 : Vec F S16x1024 .f32) (x4 : Vec F S1x1024 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, View.readCov_unit_zero (S := S1024x16) _ hz, View.readCov_unit_zero (S := S1024x1024) _ hz,
    harg3.read_unread, harg4.read_unread, harg5.read_unread, harg6.read_unread, harg7.read_unread, harg9.read_unread,
    harg10.read_unread, View.ld_unit_zero (S := S1024x1024) hz, View.ld_unit_zero (S := S1024x16) hz,
    View.ld_unit_zero (S := S16x1024) hz, View.ld_unit_zero (S := S1x1024) hz]

end Cert.KernelIdeal.Pieces

end
-- ==== Proof.PayIdx.lean ====
/-
  The kernel body's arithmetic, one entry at a time, over the extended reals.

  At the ideal instance a change of float format is the identity and a matrix product into a zero accumulator is the plain
  sum of products. So, entry by entry: the reset tiles are `0`; an accumulator update is `acc[p,q] + ∑ₑ x[p,e]·w[e,q]`
  (`e` over the 1024 rows of the step's stretch of the contracted axis); the low-rank update likewise with the scaled factor;
  and the output tile is `(acc[p,q] + ∑ᵣ low[p,r]·v[r,q]) + bias[0,q]` (`r` over the 16 ranks, the bias row broadcast down the
  tile's rows).
-/
import proofs.«160765_j85401129714088_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.PayIdx

open Cert.KernelIdeal Cert.KernelIdeal.Gen

/-! ### The dense product of a step: a 1024×1024 tile of `x` by a 1024×1024 tile of `W` -/

theorem lhs_acc_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_acc_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_acc_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_acc_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Into a zero accumulator the product's entry `(p, q)` is `∑ₑ l[p,e]·r[e,q]`. -/
theorem mm_acc (l : FVec Ideal S1024x1024 .bf16) (r : FVec Ideal S1024x1024 .bf16) (p : Fin 1024) (q : Fin 1024) :
    matmul (F := Ideal) dot_S1024x1024_S1024x1024_S1024x1024_1_0_0_1_n_n none l r (constant (F := Ideal) S1024x1024 .f32 0x00000000#32) (ix2 p q)
      = ∑ e : Fin 1024, l (ix2 p e) * r (ix2 e q) := by
  refine (Ideal.matmul_constant_zero_apply dot_S1024x1024_S1024x1024_S1024x1024_1_0_0_1_n_n none l r (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_acc_0 _ _
    | ⟨1, _⟩ => exact (lhs_acc_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_acc_0 _ _).trans hk
    | ⟨1, _⟩ => exact rhs_acc_1 _ _)
  rw [el, er]

/-! ### The low-rank projection of a step: a 1024×1024 tile of `x` by a 1024×16 tile of the scaled factor -/

theorem lhs_low_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
theorem lhs_low_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
theorem rhs_low_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q
theorem rhs_low_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl

/-- Into a zero accumulator the product's entry `(p, q)` is `∑ₑ l[p,e]·r[e,q]`. -/
theorem mm_low (l : FVec Ideal S1024x1024 .bf16) (r : FVec Ideal S1024x16 .bf16) (p : Fin 1024) (q : Fin 16) :
    matmul (F := Ideal) dot_S1024x1024_S1024x16_S1024x16_1_0_0_1_n_n none l r (constant (F := Ideal) S1024x16 .f32 0x00000000#32) (ix2 p q)
      = ∑ e : Fin 1024, l (ix2 p e) * r (ix2 e q) := by
  refine (Ideal.matmul_constant_zero_apply dot_S1024x1024_S1024x16_S1024x16_1_0_0_1_n_n none l r (ix2 p q)).trans ?_
  rw [← Equiv.sum_comp (contrEquiv1 dot_S1024x1024_S1024x16_S1024x16_1_0_0_1_n_n 1024 rfl rfl).symm]
  refine Finset.sum_congr rfl fun k _ => ?_
  have hk := contrEquiv1_symm_val dot_S1024x1024_S1024x16_S1024x16_1_0_0_1_n_n 1024 rfl rfl k
  have el : dot_S1024x1024_S1024x16_S1024x16_1_0_0_1_n_n.lhsIdx (ix2 p q) ((contrEquiv1 dot_S1024x1024_S1024x16_S1024x16_1_0_0_1_n_n 1024 rfl rfl).symm k) = ix2 p k := funext fun a => Fin.ext (by
    match a with
    | ⟨0, _⟩ => exact lhs_low_0 _ _
    | ⟨1, _⟩ => exact (lhs_low_1 _ _).trans hk)
  have er : dot_S1024x1024_S1024x16_S1024x16_1_0_0_1_n_n.rhsIdx (ix2 p q) ((contrEquiv1 dot_S1024x1024_S1024x16_S1024x16_1_0_0_1_n_n 1024 rfl rfl).symm k) = ix2 k q := funext fun a => Fin.ext (by
    match a with
    | ⟨0, _⟩ => exact (rhs_low_0 _ _).trans hk
    | ⟨1, _⟩ => exact rhs_low_1 _ _)
  rw [el, er]

/-! ### The low-rank expansion: the 1024×16 projection by a 16×1024 tile of `V` -/

theorem lhs_up_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
theorem lhs_up_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
theorem rhs_up_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q
theorem rhs_up_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Into a zero accumulator the product's entry `(p, q)` is `∑ₑ l[p,e]·r[e,q]`. -/
theorem mm_up (l : FVec Ideal S1024x16 .bf16) (r : FVec Ideal S16x1024 .bf16) (p : Fin 1024) (q : Fin 1024) :
    matmul (F := Ideal) dot_S1024x16_S16x1024_S1024x1024_1_0_0_1_n_n none l r (constant (F := Ideal) S1024x1024 .f32 0x00000000#32) (ix2 p q)
      = ∑ e : Fin 16, l (ix2 p e) * r (ix2 e q) := by
  refine (Ideal.matmul_constant_zero_apply dot_S1024x16_S16x1024_S1024x1024_1_0_0_1_n_n none l r (ix2 p q)).trans ?_
  rw [← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p q) ((contrEquiv1 dot_S1024x16_S16x1024_S1024x1024_1_0_0_1_n_n 16 rfl rfl).symm k) = ix2 p k := funext fun a => Fin.ext (by
    match a with
    | ⟨0, _⟩ => exact lhs_up_0 _ _
    | ⟨1, _⟩ => exact (lhs_up_1 _ _).trans hk)
  have er : dot_S1024x16_S16x1024_S1024x1024_1_0_0_1_n_n.rhsIdx (ix2 p q) ((contrEquiv1 dot_S1024x16_S16x1024_S1024x1024_1_0_0_1_n_n 16 rfl rfl).symm k) = ix2 k q := funext fun a => Fin.ext (by
    match a with
    | ⟨0, _⟩ => exact (rhs_up_0 _ _).trans hk
    | ⟨1, _⟩ => exact rhs_up_1 _ _)
  rw [el, er]

/-! ### The payloads -/

/-- The zero word is the real `0`. -/
theorem zero_word : (Scalar.ofBits (F := Ideal) .f32 0x00000000#32 : Ideal .f32) = 0 := Ideal.ofBits_zero_f32

/-- The dense accumulator's reset tile is `0` everywhere. -/
theorem reset_acc_apply (j : S1024x1024.Idx) : k0_pay1 (F := Ideal) j = 0 := by
  unfold k0_pay1
  rw [shapeCast_self]
  exact zero_word

/-- The low-rank accumulator's reset tile is `0` everywhere. -/
theorem reset_low_apply (j : S1024x16.Idx) : k0_pay2 (F := Ideal) j = 0 := by
  unfold k0_pay2
  rw [shapeCast_self]
  exact zero_word

/-- The dense update, at an entry. -/
theorem upd_acc_apply (x w acc : Vec Ideal S1024x1024 .f32) (p q : Fin 1024) :
    k0_pay4 (F := Ideal) x w acc (ix2 p q) = acc (ix2 p q) + ∑ e : Fin 1024, x (ix2 p e) * w (ix2 e q) := by
  unfold k0_pay4 k0_pay3
  rw [shapeCast_self, shapeCast_self]
  refine (congrArg (fun z => acc (ix2 p q) + z) (mm_acc _ _ p q)).trans ?_
  rfl

/-- The low-rank update, at an entry. -/
theorem upd_low_apply (x : Vec Ideal S1024x1024 .f32) (us low : Vec Ideal S1024x16 .f32) (p : Fin 1024) (r : Fin 16) :
    k0_pay5 (F := Ideal) x us low (ix2 p r) = low (ix2 p r) + ∑ e : Fin 1024, x (ix2 p e) * us (ix2 e r) := by
  unfold k0_pay5 k0_pay3
  rw [shapeCast_self, shapeCast_self, shapeCast_self]
  refine (congrArg (fun z => low (ix2 p r) + z) (mm_low _ _ p r)).trans ?_
  rfl

/-- The bias row broadcast down a tile's rows reads the row at the entry's column. -/
theorem bias_row_apply (b : Vec Ideal S1x1024 .f32) (p q : Fin 1024) :
    broadcastTo S1024x1024 b broadcasts_S1x1024_S1024x1024 (ix2 p q) = b (ix2 0 q) :=
  broadcastTo_apply b broadcasts_S1x1024_S1024x1024 (ix2 p q) (ix2 0 q) (fun a => by
    match a with
    | ⟨0, _⟩ => show (0 : ℕ) = if (1 : ℕ) = 1 then 0 else p.val; rw [if_pos rfl]
    | ⟨1, _⟩ => show q.val = if (1024 : ℕ) = 1 then 0 else q.val; rw [if_neg (by decide)])

/-- The output tile, at an entry. -/
theorem out_apply (v : Vec Ideal S16x1024 .f32) (low : Vec Ideal S1024x16 .f32) (acc : Vec Ideal S1024x1024 .f32)
    (b : Vec Ideal S1x1024 .f32) (p q : Fin 1024) :
    k0_pay6 (F := Ideal) v low acc b (ix2 p q)
      = (acc (ix2 p q) + ∑ r : Fin 16, low (ix2 p r) * v (ix2 r q)) + b (ix2 0 q) := by
  unfold k0_pay6
  rw [shapeCast_self]
  refine (congrArg₂ (fun y z => (acc (ix2 p q) + y) + z) (mm_up _ _ p q) (bias_row_apply b p q)).trans ?_
  rfl

end Cert.KernelIdeal.PayIdx

end
-- ==== Proof.Running.lean ====
/-
  What the two accumulators hold after every step, and what the last step of a stretch-walk writes.

  Write `I = t / 16`, `J = t / 4 % 4`, `k = t % 4` for step `t`. After step `t` the dense accumulator holds, at `(p, q)`, the
  contraction of row `I·1024 + p` of the activation with column `J·1024 + q` of `W` over the first `(k + 1)·1024` terms, and the
  low-rank accumulator the same with the scaled factor. By induction on the step: at `k = 0` both were reset, so they hold
  `0` plus the first stretch; at `k > 0` step `t − 1` has the same `I` and `J` and stretch `k − 1`, and one more stretch extends the
  running sum. At `k = 3` the sums are complete (4·1024 = 4096 terms) and the output tile is the whole map's entry.
-/
import proofs.«160765_j85401129714088_1_alg».proof.Proof.Blocks
import proofs.«160765_j85401129714088_1_alg».proof.Proof.Pieces
import proofs.«160765_j85401129714088_1_alg».proof.Proof.PayIdx

noncomputable section

open scoped BigOperators
open Idealize.ShloMosaic Idealize.ShloMosaic.TcCoe Idealize.SL.Sem Idealize.ShloMosaic.ValueIdx

namespace Cert.KernelIdeal.Running

open Cert.KernelIdeal Cert.KernelIdeal.Gen Cert.Lora Cert.KernelIdeal.Blocks

variable (m : (ℓ : Loc nD τ sig) → Buf (Elt Ideal) ℓ)

/-! ## One step extends a running sum by one stretch -/

/-- The dense update at step `t`, over an accumulator holding the running sum up to the step's stretch. -/
theorem acc_step (c : Dev nD) (t : Fin cfg0.N) (prev : Vec Ideal S1024x1024 .f32) (p q : Fin 1024)
    (hprev : prev (ix2 p q)
      = dotTo (Xa m c) (Wa m c) (t.val % 4 * 1024) (t.val / 16 * 1024 + p.val) (t.val / 4 % 4 * 1024 + q.val)) :
    k0_pay4 (F := Ideal) (xblk m c t) (wblk m c t) prev (ix2 p q)
      = dotTo (Xa m c) (Wa m c) ((t.val % 4 + 1) * 1024) (t.val / 16 * 1024 + p.val) (t.val / 4 % 4 * 1024 + q.val) := by
  have e : (t.val % 4 + 1) * 1024 = t.val % 4 * 1024 + 1024 := by omega
  rw [PayIdx.upd_acc_apply, hprev, e, dotTo_block]
  refine congrArg _ (Finset.sum_congr rfl fun e _ => ?_)
  rw [xblk_apply, wblk_apply]

/-- The low-rank update at step `t`, likewise. -/
theorem low_step (c : Dev nD) (t : Fin cfg0.N) (prev : Vec Ideal S1024x16 .f32) (p : Fin 1024) (r : Fin 16)
    (hprev : prev (ix2 p r) = dotTo (Xa m c) (Ua m c) (t.val % 4 * 1024) (t.val / 16 * 1024 + p.val) r.val) :
    k0_pay5 (F := Ideal) (xblk m c t) (ublk m c t) prev (ix2 p r)
      = dotTo (Xa m c) (Ua m c) ((t.val % 4 + 1) * 1024) (t.val / 16 * 1024 + p.val) r.val := by
  have e : (t.val % 4 + 1) * 1024 = t.val % 4 * 1024 + 1024 := by omega
  rw [PayIdx.upd_low_apply, hprev, e, dotTo_block]
  refine congrArg _ (Finset.sum_congr rfl fun e _ => ?_)
  rw [xblk_apply, ublk_apply]

/-! ## The invariant -/

/-- After step `n`: both accumulators at their running sums. -/
def Inv (c : Dev nD) (n : ℕ) (h : n < cfg0.N) : Prop :=
  (∀ p q : Fin 1024, (outsAt0 m c n h).2.1 (ix2 p q)
      = dotTo (Xa m c) (Wa m c) ((n % 4 + 1) * 1024) (n / 16 * 1024 + p.val) (n / 4 % 4 * 1024 + q.val))
  ∧ (∀ (p : Fin 1024) (r : Fin 16), (outsAt0 m c n h).2.2 (ix2 p r)
      = dotTo (Xa m c) (Ua m c) ((n % 4 + 1) * 1024) (n / 16 * 1024 + p.val) r.val)

/-- A first step of a stretch-walk establishes it from the reset. -/
theorem inv_first (c : Dev nD) (t : Fin cfg0.N) (h0 : t.val % 4 = 0) : Inv m c t.val t.isLt := by
  have h1 : ¬t.val % 4 = 3 := by omega
  unfold Inv
  rw [outsAt0_A m c t h0 h1]
  dsimp only
  refine ⟨fun p q => ?_, fun p r => ?_⟩
  · refine (congrFun (Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (ublk m c t) (vblk m c t) (bblk m c t)) (ix2 p q)).trans ?_
    refine acc_step m c t _ p q ?_
    rw [PayIdx.reset_acc_apply, h0, Nat.zero_mul, dotTo_zero]
  · refine (congrFun (Pieces.low_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (xblk m c t) (wblk m c t) (ublk m c t) (vblk m c t) (bblk m c t)) (ix2 p r)).trans ?_
    refine low_step m c t _ p r ?_
    rw [PayIdx.reset_low_apply, h0, Nat.zero_mul, dotTo_zero]

/-- What the step before left, restated at this step's tile indices and stretch. -/
theorem prev_of_inv (c : Dev nD) (t : Fin cfg0.N) (h0 : ¬t.val % 4 = 0)
    (ih : Inv m c (t.val - 1) (Nat.lt_of_le_of_lt (Nat.sub_le _ _) t.isLt)) :
    (∀ p q : Fin 1024, (outsAt0 m c (t.val - 1) (Nat.lt_of_le_of_lt (Nat.sub_le _ _) t.isLt)).2.1 (ix2 p q)
        = dotTo (Xa m c) (Wa m c) (t.val % 4 * 1024) (t.val / 16 * 1024 + p.val) (t.val / 4 % 4 * 1024 + q.val))
    ∧ (∀ (p : Fin 1024) (r : Fin 16), (outsAt0 m c (t.val - 1) (Nat.lt_of_le_of_lt (Nat.sub_le _ _) t.isLt)).2.2 (ix2 p r)
        = dotTo (Xa m c) (Ua m c) (t.val % 4 * 1024) (t.val / 16 * 1024 + p.val) r.val) := by
  have e1 : (t.val - 1) % 4 + 1 = t.val % 4 := by omega
  have e2 : (t.val - 1) / 16 = t.val / 16 := by omega
  have e3 : (t.val - 1) / 4 % 4 = t.val / 4 % 4 := by omega
  unfold Inv at ih
  rw [e1, e2, e3] at ih
  exact ih

/-- A middle step keeps it. -/
theorem inv_mid (c : Dev nD) (t : Fin cfg0.N) (h0 : ¬t.val % 4 = 0) (h1 : ¬t.val % 4 = 3)
    (ih : Inv m c (t.val - 1) (Nat.lt_of_le_of_lt (Nat.sub_le _ _) t.isLt)) : Inv m c t.val t.isLt := by
  obtain ⟨ha, hl⟩ := prev_of_inv m c t h0 ih
  unfold Inv
  rw [outsAt0_B m c t h0 h1]
  dsimp only
  refine ⟨fun p q => ?_, fun p r => ?_⟩
  · refine (congrFun (Pieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (ublk m c t) (vblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
    exact acc_step m c t _ p q (ha p q)
  · refine (congrFun (Pieces.low_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (xblk m c t) (wblk m c t) (ublk m c t) (vblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ?_
    exact low_step m c t _ p r (hl p r)

/-- A last step keeps it. -/
theorem inv_last (c : Dev nD) (t : Fin cfg0.N) (h0 : ¬t.val % 4 = 0) (h1 : t.val % 4 = 3)
    (ih : Inv m c (t.val - 1) (Nat.lt_of_le_of_lt (Nat.sub_le _ _) t.isLt)) : Inv m c t.val t.isLt := by
  obtain ⟨ha, hl⟩ := prev_of_inv m c t h0 ih
  unfold Inv
  rw [outsAt0_C m c t h0 h1]
  dsimp only
  refine ⟨fun p q => ?_, fun p r => ?_⟩
  · refine (congrFun (Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ublk m c t) (vblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
    exact acc_step m c t _ p q (ha p q)
  · refine (congrFun (Pieces.low_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ublk m c t) (vblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p r)).trans ?_
    exact low_step m c t _ p r (hl p r)

/-- The invariant holds after every step. -/
theorem inv_all (c : Dev nD) : ∀ (n : ℕ) (h : n < cfg0.N), Inv m c n h := by
  intro n
  induction n with
  | zero => intro h; exact inv_first m c ⟨0, h⟩ rfl
  | succ n ih =>
    intro h
    by_cases h0 : (n + 1) % 4 = 0
    · exact inv_first m c ⟨n + 1, h⟩ h0
    · by_cases h1 : (n + 1) % 4 = 3
      · exact inv_last m c ⟨n + 1, h⟩ h0 h1 (ih _)
      · exact inv_mid m c ⟨n + 1, h⟩ h0 h1 (ih _)

/-! ## The output tile of a last step -/

/-- At a last step (`t % 4 = 3`) the output tile's entry `(p, q)` is the whole map's entry at row `(t / 16)·1024 + p`, column
    `(t / 4 % 4)·1024 + q`. -/
theorem out_tile (c : Dev nD) (t : Fin cfg0.N) (h1 : t.val % 4 = 3) (p q : Fin 1024)
    (P : Fin 8192) (Q : Fin 4096) (hP : P.val = t.val / 16 * 1024 + p.val) (hQ : Q.val = t.val / 4 % 4 * 1024 + q.val) :
    (outsAt0 m c t.val t.isLt).1 (ix2 p q) = out2 (Xa m c) (Wa m c) (Ua m c) (Va m c) (Ba m c) (ix2 P Q) := by
  have h0 : ¬t.val % 4 = 0 := by omega
  obtain ⟨ha, hl⟩ := prev_of_inv m c t h0 (inv_all m c _ _)
  rw [outsAt0_C m c t h0 h1]
  dsimp only
  refine (congrFun (Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (xblk m c t) (wblk m c t) (ublk m c t) (vblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2) (ix2 p q)).trans ?_
  rw [PayIdx.out_apply, acc_step m c t _ p q (ha p q)]
  have e4 : (t.val % 4 + 1) * 1024 = 4096 := by omega
  unfold out2
  rw [e4, ← hP, ← hQ, dotTo_full]
  refine congrArg₂ (fun y z => (_ + y) + z) (Finset.sum_congr rfl fun r _ => ?_) ?_
  · rw [low_step m c t _ p r (hl p r), e4, ← hP, dotTo_full, vblk_apply, ← hQ, at2_val]
  · rw [bblk_apply, ← hQ]
    exact at2_val (Ba m c) 0 Q

end Cert.KernelIdeal.Running

end
-- ==== Proof.Final.lean ====
/-
  The kernel's whole result array.

  Only the last step of each stretch-walk (`t % 4 = 3`) writes its output tile back, to tile `(t / 16, t / 4 % 4)` of the
  8192×4096 result. Entry `(P, Q)` of the result lies in the tile of step `(P / 1024)·16 + (Q / 1024)·4 + 3`, so those 32 tiles
  cover the result, and since each written tile is the whole map's entries on its rows and columns, the result array ends
  holding the whole map.
-/
import proofs.«160765_j85401129714088_1_alg».proof.Proof.Running

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Lora Cert.KernelIdeal.Blocks Cert.KernelIdeal.Running

variable (m : (ℓ : Loc nD τ sig) → Buf (Elt Ideal) ℓ)

/-- The whole map on the arrays the region finds: what the result array is to hold. -/
abbrev whole (c : Dev nD) : Vec Ideal S8192x4096 .f32 := out2 (Xa m c) (Wa m c) (Ua m c) (Va m c) (Ba m c)

/-- A flushing step writes back the whole map's entries on its tile. -/
theorem flushed_eq (c : Dev nD) (t : Fin cfg0.N) (hf : (cfg0.win 5).flush t = true) :
    (dats m 0 c).flushed 5 t = ((cfg0.win 5).blk t).view.read (Elt Ideal) (whole m c) := by
  have h3 : t.val % 4 = 3 := (flush0_5 t).mp hf
  have hN : t.val < 128 := lt_of_lt_of_eq t.isLt N_0
  have hi := idx_facts t
  show (cfg0.win 5).cut (grid0.coords t) ((dats m 0 c).after 5 t) = _
  rw [after0_5]
  funext j
  obtain ⟨p, q, rfl⟩ : ∃ (p q : Fin 1024), j = ix2 p q := ⟨j 0, j 1, eq_ix2 (n0 := 1024) (n1 := 1024) j⟩
  rw [View.read_apply]
  show (outsAt0 m c t.val t.isLt).1 (ix2 p q) = whole m c (((cfg0.win 5).blk t).view.emb (ix2 p q))
  rw [out_tile m c t h3 p q ⟨t.val / 16 * 1024 + p.val, by omega⟩ ⟨t.val / 4 % 4 * 1024 + q.val, by omega⟩ rfl rfl]
  refine congrArg (whole m c) (funext fun ax => Fin.ext ?_)
  match ax with
  | ⟨0, _⟩ => show t.val / 16 * 1024 + p.val = win0_5.index t 0 * 1024 + 1 * p.val; rw [hi.2.2.2.2.2.2.2.2.2.2.1]; omega
  | ⟨1, _⟩ => show t.val / 4 % 4 * 1024 + q.val = win0_5.index t 1 * 1024 + 1 * q.val; rw [hi.2.2.2.2.2.2.2.2.2.2.2]; omega

/-- An entry of the result is in step `t`'s tile iff each coordinate is in the tile's range on its axis. -/
theorem mem_tile (t : Fin cfg0.N) (i : S8192x4096.Idx) :
    i ∈ ((cfg0.win 5).blk t).view.set
      ↔ ∀ a : Fin 2, win0_5.index t a * S1024x1024.size a ≤ (i a).val
          ∧ (i a).val < win0_5.index t a * S1024x1024.size a + S1024x1024.size a := by
  show i ∈ ((View.whole main_v4).slice (win0_5.rect t)).set ↔ _
  rw [View.set_slice_whole, Rect.mem_set_unit]
  exact Iff.rfl

/-- Every entry of the result is in some flushing step's tile. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  obtain ⟨n, hn⟩ : ∃ n, n = (i 0).val / 1024 * 16 + (i 1).val / 1024 * 4 + 3 := ⟨_, rfl⟩
  have hlt : n < cfg0.N := by rw [show cfg0.N = 128 from N_0]; omega
  have hi := idx_facts ⟨n, hlt⟩
  refine ⟨⟨n, hlt⟩, (flush0_5 _).mpr (by show n % 4 = 3; omega), ?_⟩
  rw [mem_tile]
  intro a
  match a with
  | ⟨0, _⟩ =>
    show win0_5.index ⟨n, hlt⟩ 0 * 1024 ≤ (i 0).val ∧ (i 0).val < win0_5.index ⟨n, hlt⟩ 0 * 1024 + 1024
    rw [hi.2.2.2.2.2.2.2.2.2.2.1]
    show n / 16 * 1024 ≤ (i 0).val ∧ (i 0).val < n / 16 * 1024 + 1024
    omega
  | ⟨1, _⟩ =>
    show win0_5.index ⟨n, hlt⟩ 1 * 1024 ≤ (i 1).val ∧ (i 1).val < win0_5.index ⟨n, hlt⟩ 1 * 1024 + 1024
    rw [hi.2.2.2.2.2.2.2.2.2.2.2]
    show n / 4 % 4 * 1024 ≤ (i 1).val ∧ (i 1).val < n / 4 % 4 * 1024 + 1024
    omega

/-- So the result array ends holding the whole map. -/
theorem result_array (c : Dev nD) : (dats m 0 c).arrAt 5 cfg0.N = whole m c :=
  (dats m 0 c).arrAt_eq_of_cover 5 (whole m c) (flushed_eq m c) cover

end Cert.KernelIdeal.Final

end
-- ==== Proof.KernelRun.lean ====
/-
  The kernel program's run, read as the map of LoraSpec on the arguments.

  Before the region the host flattens the activation `x[b,s,d]` to `X[b·2048 + s, d]`, scales `U` by the constant `2`, and views the
  bias as a one-row matrix; after it, the host folds the 8192×4096 result back to `[4, 2048, 4096]`. A reshape keeps the
  row-major position, so entry `(b, s, f)` of the final result is entry `(b·2048 + s, f)` of the region's result, and row
  `b·2048 + s` of `X` is row `(b, s)` of `x`. With the region's result being the whole map on `X`, the scaled factor and the bias
  row, the final result is the map on the arguments themselves.
-/
import proofs.«160765_j85401129714088_1_alg».proof.Proof.Final
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.Lora Cert.KernelIdeal.Blocks Cert.KernelIdeal.Final

variable (m : (ℓ : Loc nD τ sig) → Buf (Elt Ideal) ℓ) (ρ : Dev nD → PrngReg)

/-- The scale constant, as the extended real its word denotes. -/
abbrev two : EReal := FloatOps.ofBits (F := Ideal) .f32 0x40000000#32

/-! ## The arguments, at their literal types -/

abbrev xarg (c : Dev nD) : Vec Ideal S4x2048x4096 .f32 := m ((c : Thread nD τ).loc main_arg0)
abbrev warg (c : Dev nD) : Vec Ideal S4096x4096 .f32 := m ((c : Thread nD τ).loc main_arg1)
abbrev uarg (c : Dev nD) : Vec Ideal S4096x16 .f32 := m ((c : Thread nD τ).loc main_arg2)
abbrev varg (c : Dev nD) : Vec Ideal S16x4096 .f32 := m ((c : Thread nD τ).loc main_arg3)
abbrev barg (c : Dev nD) : Vec Ideal S4096 .f32 := m ((c : Thread nD τ).loc main_arg4)

/-! ## What the region finds, from the arguments -/

theorem Xa_eq (c : Dev nD) :
    Xa m c = shapeCast S8192x4096 (m ((c : Thread nD τ).loc main_arg0)) shapeCasts_S4x2048x4096_S8192x4096 := by
  show StableHlo.after hostOps0 (fun b => m (c, b)) (Proc.devRef .tc main_v0) = _
  after_results
  rfl

theorem Ua_eq (c : Dev nD) :
    Ua m c = mulf (m ((c : Thread nD τ).loc main_arg2))
      (broadcastInDim S4096x16 ![] bcast_S_S4096x16 (constant (F := Ideal) S_ .f32 0x40000000#32)) := by
  show StableHlo.after hostOps0 (fun b => m (c, b)) (Proc.devRef .tc main_v2) = _
  after_results

theorem Ba_eq (c : Dev nD) :
    Ba m c = shapeCast S1x4096 (m ((c : Thread nD τ).loc main_arg4)) shapeCasts_S4096_S1x4096 := by
  show StableHlo.after hostOps0 (fun b => m (c, b)) (Proc.devRef .tc main_v3) = _
  after_results
  rfl

/-- Row `b·2048 + s` of the flattened activation is row `(b, s)` of the activation. -/
theorem Xa_apply (c : Dev nD) (b : Fin 4) (s : Fin 2048) (d : Fin 4096) (P : Fin 8192) (hP : P.val = b.val * 2048 + s.val) :
    Xa m c (ix2 P d) = xarg m c (ix3 b s d) := by
  rw [Xa_eq]
  refine shapeCast_apply _ shapeCasts_S4x2048x4096_S8192x4096 (ix2 P d) (ix3 b s d) ?_
  rw [Shape.rowMajor_val_three, Shape.rowMajor_val_two]
  show (b.val * 2048 + s.val) * 4096 + d.val = P.val * 4096 + d.val
  rw [hP]

/-- The scaled factor, at an entry. -/
theorem Ua_apply (c : Dev nD) (d : Fin 4096) (r : Fin 16) :
    Ua m c (ix2 d r) = uarg m c (ix2 d r) * two := by
  rw [Ua_eq]
  rfl

/-- The bias row, at an entry. -/
theorem Ba_apply (c : Dev nD) (f : Fin 4096) :
    Ba m c (ix2 0 f) = barg m c (ix1 f) := by
  rw [Ba_eq]
  refine shapeCast_apply _ shapeCasts_S4096_S1x4096 (ix2 0 f) (ix1 f) ?_
  rw [Shape.rowMajor_val_one, Shape.rowMajor_val_two]
  show f.val = 0 * 4096 + f.val
  omega

/-! ## The final result -/

/-- The map on the arguments as the program was launched with them. -/
abbrev result (c : Dev nD) : Vec Ideal S4x2048x4096 .f32 :=
  lora two (xarg m c) (warg m c) (uarg m c) (varg m c) (barg m c)

/-- The region's result folded back is the map on the arguments. -/
theorem folded_eq (c : Dev nD) :
    shapeCast S4x2048x4096 (whole m c) shapeCasts_S8192x4096_S4x2048x4096 = result m c := by
  funext j
  obtain ⟨b, s, f, rfl⟩ : ∃ (b : Fin 4) (s : Fin 2048) (f : Fin 4096), j = ix3 b s f := ⟨j 0, j 1, j 2, eq_ix3 j⟩
  have hb : b.val < 4 := b.isLt
  have hs : s.val < 2048 := s.isLt
  obtain ⟨P, hP⟩ : ∃ P : Fin 8192, P.val = b.val * 2048 + s.val := ⟨⟨b.val * 2048 + s.val, by omega⟩, rfl⟩
  rw [shapeCast_apply (whole m c) shapeCasts_S8192x4096_S4x2048x4096 (ix3 b s f) (ix2 P f) (by
    rw [Shape.rowMajor_val_three, Shape.rowMajor_val_two]
    show P.val * 4096 + f.val = (b.val * 2048 + s.val) * 4096 + f.val
    rw [hP])]
  show (∑ d : Fin 4096, Xa m c (ix2 P d) * Wa m c (ix2 d f)
        + ∑ r : Fin 16, (∑ d : Fin 4096, Xa m c (ix2 P d) * Ua m c (ix2 d r)) * Va m c (ix2 r f)) + Ba m c (ix2 0 f)
      = (∑ d : Fin 4096, xarg m c (ix3 b s d) * warg m c (ix2 d f)
        + ∑ r : Fin 16, (∑ d : Fin 4096, xarg m c (ix3 b s d) * (uarg m c (ix2 d r) * two)) * varg m c (ix2 r f))
        + barg m c (ix1 f)
  simp only [Xa_apply m c b s _ P hP, Ua_apply m c, Ba_apply m c]
  rw [show Wa m c = warg m c from V_main_arg1 m c, show Va m c = varg m c from V_main_arg3 m c]

/-- After the host's last reshape the program's result buffer holds the map on the arguments. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  refine Eq.trans (b := shapeCast S4x2048x4096 (Pipeline.withArrays (cfgs 0).spec c (V0 m c)
    (fun w => (dats m 0 c).arrAt w (cfgs 0).N) (Proc.devRef .tc main_v4)) shapeCasts_S8192x4096_S4x2048x4096) rfl ?_
  rw [show Pipeline.withArrays (cfgs 0).spec c (V0 m c) (fun w => (dats m 0 c).arrAt w (cfgs 0).N) (Proc.devRef .tc main_v4)
      = whole m c from (Pipeline.withArrays_arr spec0 launch0.win.arr_inj c _ _ 5).trans (result_array m c)]
  exact folded_eq m c

/-! ## The run -/

/-- Every weakly fair execution of the kernel program terminates with its result buffer at the map on the arguments and the
    arguments as launched. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KernelRun

end
-- ==== Proof.RefValue.lean ====
/-
  The reference computes the map of LoraSpec, entry by entry.

  Its ten host operations are three contractions (`x·W` over the 4096 features; `x·(U·2)` over the same; the result of that
  by `V` over the 16 ranks), the scaling of `U` by the constant `2`, two additions and the bias broadcast along rows. Read
  one operation at a time at entry `(b, s, f)`, they give exactly
  `(∑_d x[b,s,d]·W[d,f] + ∑_r (∑_d x[b,s,d]·(U[d,r]·2))·V[r,f]) + bias[f]`.
-/
import proofs.«160765_j85401129714088_1_alg».proof.Defs
import proofs.«160765_j85401129714088_1_alg».proof.Proof.Gen.ReferenceIdeal
import proofs.«160765_j85401129714088_1_alg».proof.Proof.Gen.ReferenceIdeal.Run
import proofs.«160765_j85401129714088_1_alg».proof.Proof.Gen.ReferenceIdeal.Read
import proofs.«160765_j85401129714088_1_alg».proof.Proof.LoraSpec

noncomputable section

open scoped BigOperators
open Idealize.ShloMosaic Idealize.ShloMosaic.ValueIdx

namespace Cert.ReferenceIdeal.RefValue

open Cert.ReferenceIdeal Cert.ReferenceIdeal.Read Cert.Lora

/-- The scale constant, as the extended real its word denotes. -/
abbrev two : EReal := FloatOps.ofBits (F := Ideal) .f32 0x40000000#32

/-! ## The operations' composed index maps, by coordinates -/

theorem lidx0 (b : Fin 4) (s : Fin 2048) (f k : Fin 4096) : lidx_main_v0 (ix3 b s f) k = ix3 b s k := funext fun a => Fin.ext (by match a with | ⟨0, _⟩ => rfl | ⟨1, _⟩ => rfl | ⟨2, _⟩ => rfl)
theorem ridx0 (b : Fin 4) (s : Fin 2048) (f k : Fin 4096) : ridx_main_v0 (ix3 b s f) k = ix2 k f := funext fun a => Fin.ext (by match a with | ⟨0, _⟩ => rfl | ⟨1, _⟩ => rfl)
theorem lidx4 (b : Fin 4) (s : Fin 2048) (f : Fin 4096) (r : Fin 16) : lidx_main_v4 (ix3 b s f) r = ix3 b s r := funext fun a => Fin.ext (by match a with | ⟨0, _⟩ => rfl | ⟨1, _⟩ => rfl | ⟨2, _⟩ => rfl)
theorem ridx4 (b : Fin 4) (s : Fin 2048) (f : Fin 4096) (r : Fin 16) : ridx_main_v4 (ix3 b s f) r = ix2 r f := funext fun a => Fin.ext (by match a with | ⟨0, _⟩ => rfl | ⟨1, _⟩ => rfl)
theorem lidx3 (b : Fin 4) (s : Fin 2048) (r : Fin 16) (k : Fin 4096) : lidx_main_v3 (ix3 b s r) k = ix3 b s k := funext fun a => Fin.ext (by match a with | ⟨0, _⟩ => rfl | ⟨1, _⟩ => rfl | ⟨2, _⟩ => rfl)
theorem ridx3 (b : Fin 4) (s : Fin 2048) (r : Fin 16) (k : Fin 4096) : ridx_main_v3 (ix3 b s r) k = ix2 k r := funext fun a => Fin.ext (by match a with | ⟨0, _⟩ => rfl | ⟨1, _⟩ => rfl)
theorem idx67 (b : Fin 4) (s : Fin 2048) (f : Fin 4096) : idx_main_v6 (idx_main_v7 (ix3 b s f)) = ix1 f := funext fun a => Fin.ext (by match a with | ⟨0, _⟩ => rfl)

/-! ## The reference's result is the map -/

theorem ref_is_lora (x : (⟨S4x2048x4096, .f32⟩ : BufTy).Contents (Elt Ideal)) (W : (⟨S4096x4096, .f32⟩ : BufTy).Contents (Elt Ideal))
    (U : (⟨S4096x16, .f32⟩ : BufTy).Contents (Elt Ideal)) (V : (⟨S16x4096, .f32⟩ : BufTy).Contents (Elt Ideal))
    (bias : (⟨S4096, .f32⟩ : BufTy).Contents (Elt Ideal)) :
    val_main_v8 (F := Ideal) x W U V bias = lora two x W U V bias := by
  funext j
  obtain ⟨b, s, f, rfl⟩ : ∃ (b : Fin 4) (s : Fin 2048) (f : Fin 4096), j = ix3 b s f := ⟨j 0, j 1, j 2, eq_ix3 j⟩
  rw [val_main_v8_apply, val_main_v5_apply, val_main_v0_apply, val_main_v4_apply, val_main_v7_apply, val_main_v6_apply]
  simp only [val_main_v3_apply, val_main_v2_apply, val_main_v1_apply, val_main_cst_apply, lidx0, ridx0, lidx4, ridx4, lidx3,
    ridx3, idx67, Ideal.addf_def, Ideal.mulf_def]
  rfl

end Cert.ReferenceIdeal.RefValue

end
-- ==== Proof.lean ====
/-
  A fused linear layer with a low-rank adapter, tiled over a grid, against its plain description.

  Both programs compute, for an activation `x[b,s,d]` (4 × 2048 × 4096), a dense weight `W[d,f]` (4096 × 4096), low-rank
  factors `U[d,r]` (4096 × 16) and `V[r,f]` (16 × 4096) and a bias `bias[f]`,

      out[b,s,f] = (∑_d x[b,s,d]·W[d,f]  +  ∑_r (∑_d x[b,s,d]·(U[d,r]·2))·V[r,f])  +  bias[f].

  The reference does it with three whole contractions. The kernel flattens `(b, s)` to 8192 rows and walks an 8 × 4 × 4 grid of
  1024-wide tiles: for each (row-tile, column-tile) it walks the 4096 contracted features in four stretches of 1024, keeping
  two running sums (the dense product's tile and the low-rank projection's 1024 × 16 tile), and after the fourth stretch
  expands the projection through `V`, adds the bias row, and writes the output tile. Over the extended reals a change of float
  format is the identity and a sum may be regrouped freely, so four stretches of 1024 terms added to `0` in order are the
  whole 4096-term contraction; no distributivity is used, hence no finiteness of the inputs.

  Modules: LoraSpec (the map, and running sums over stretches); Pieces (what each control case of the body leaves in the
  accumulators and the output tile); PayIdx (the body's arithmetic at an entry); Blocks (which array entries a step's tiles
  are); Running (the accumulators after every step, by induction on the step; the output tile of a last step); Final (the
  32 written tiles cover the result array); KernelRun (host reshapes before and after, the kernel program's run); RefValue
  (the reference's ten operations read at an entry). Below: the three frames, the empty idealization ledger, and the two
  runs ending at one function of arguments that agree.
-/
import proofs.«160765_j85401129714088_1_alg».proof.Defs
import proofs.«160765_j85401129714088_1_alg».proof.Proof.Gen.Kernel
import proofs.«160765_j85401129714088_1_alg».proof.Proof.Gen.Kernel.Skeleton
import proofs.«160765_j85401129714088_1_alg».proof.Proof.Gen.Kernel.Launch
import proofs.«160765_j85401129714088_1_alg».proof.Proof.Gen.Kernel.Points
import proofs.«160765_j85401129714088_1_alg».proof.Proof.Gen.Kernel.Frame
import proofs.«160765_j85401129714088_1_alg».proof.Proof.Gen.KernelIdeal
import proofs.«160765_j85401129714088_1_alg».proof.Proof.Gen.KernelIdeal.Skeleton
import proofs.«160765_j85401129714088_1_alg».proof.Proof.Gen.KernelIdeal.Launch
import proofs.«160765_j85401129714088_1_alg».proof.Proof.Gen.KernelIdeal.Points
import proofs.«160765_j85401129714088_1_alg».proof.Proof.Gen.KernelIdeal.Frame
import proofs.«160765_j85401129714088_1_alg».proof.Proof.Gen.ReferenceIdeal
import proofs.«160765_j85401129714088_1_alg».proof.Proof.Gen.ReferenceIdeal.Run
import proofs.«160765_j85401129714088_1_alg».proof.Proof.Gen.ReferenceIdeal.Read
import proofs.«160765_j85401129714088_1_alg».proof.Proof.Gen.Pre_finite_inputs
import proofs.«160765_j85401129714088_1_alg».proof.Proof.KernelRun
import proofs.«160765_j85401129714088_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- Over the extended reals both programs end with the map of the header on arguments that agree: the kernel program by
    its run (the running sums, the covered result array, the host reshapes), the reference by its ten operations read at an
    entry; the scale constant is the same word on both sides. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_is_lora, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
